-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Layers.lean ====
/-
  What the graph convolution does around its two matrix products, as functions of arrays — the host operations that the
  kernel's program and the reference apply alike. An edge list of 800000 (source, target) pairs over 50000 nodes gets one
  self loop per node; the degree of a node counts the edges that end in it; an edge weighs 1/sqrt(deg source · deg target)
  (0 where a degree is not positive); a layer takes the rows of a node-feature matrix at the edge sources, scales each by
  its edge's weight, adds them up at the edge targets and adds the bias. The network is: first product, layer, max with
  zero, second product, layer. The reference's run ends at exactly this composition, its two products being whole-matrix
  products; nothing here is opened: the certificate only ever needs that both programs apply the SAME functions.
-/
import proofs.«161455_j21122649162479_1_alg».proof.Proof.RefRun

set_option maxRecDepth 16384

noncomputable section

namespace Cert.ReferenceIdeal.Layers

open Cert.ReferenceIdeal Cert.ReferenceIdeal.Gen Idealize.ShloMosaic Idealize.ShloMosaic.TcCoe Idealize.SL.Sem

variable {F : FTy → Type} [FloatOps F]

/-- The edge sources (row 0 of the edge list) followed by the node numbers 0 … 49999, the self loops. -/
def sources (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edge targets (row 1 of the edge list) followed by the same node numbers. -/
def targets (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node numbers as row indices: a negative number counts from the end (50000 is added to it), then a unit axis. -/
def asRowIndices (n : (⟨S850000, .i32⟩ : BufTy).Contents (Elt F)) : (⟨S850000x1, .i32⟩ : BufTy).Contents (Elt F) :=
  broadcastInDim S850000x1 ![0] bcast_S850000_S850000x1_0 (select (cmpi .slt n (broadcastInDim S850000 ![] bcast_S_S850000 (constantI S_ 32 0#32))) (addi n (broadcastInDim S850000 ![] bcast_S_S850000 (constantI S_ 32 50000#32))) n)

/-- A node's degree: a one added for every edge that ends in it. -/
def degree (tgt : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 tgt) (broadcastInDim S850000 ![] bcast_S_S850000 (constant S_ .f32 0x3F800000#32))

/-- 1/sqrt of a positive degree, 0 otherwise. -/
def invSqrt (deg : (⟨S50000, .f32⟩ : BufTy).Contents (Elt F)) : (⟨S50000, .f32⟩ : BufTy).Contents (Elt F) :=
  select (cmpf (F := F) .ogt deg (broadcastInDim S50000 ![] bcast_S_S50000 (constant S_ .f32 0x00000000#32))) (Host.rsqrt deg) (broadcastInDim S50000 ![] bcast_S_S50000 (id (constant S_ .f32 0x00000000#32)))

/-- An edge's weight: the product of 1/sqrt(degree) at its source and at its target. -/
def edgeWeight (src tgt : (⟨S850000, .i32⟩ : BufTy).Contents (Elt F)) : (⟨S850000, .f32⟩ : BufTy).Contents (Elt F) :=
  mulf (Host.gather gather_S50000_S850000x1_S850000_n_0_n_n_0_1_1 (invSqrt (degree tgt)) (asRowIndices src)) (Host.gather gather_S50000_S850000x1_S850000_n_0_n_n_0_1_1 (invSqrt (degree tgt)) (asRowIndices tgt))

/-- The first layer's aggregation over 128 features: rows of `h` at the edge sources, each scaled by its edge's weight,
    added up at the edge targets; then the bias on every row. -/
def aggregate128 (h : (⟨S50000x128, .f32⟩ : BufTy).Contents (Elt F)) (src tgt : (⟨S850000, .i32⟩ : BufTy).Contents (Elt F)) (wgt : (⟨S850000, .f32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 tgt) (mulf (Host.gather gather_S50000x128_S850000x1_S850000x128_1_0_n_n_0_1_1128 h (asRowIndices src)) (broadcastInDim S850000x128 ![0, 1] bcast_S850000x1_S850000x128_0_1 (broadcastInDim S850000x1 ![0] bcast_S850000_S850000x1_0 wgt)))) (broadcastInDim S50000x128 ![0, 1] bcast_S1x128_S50000x128_0_1 (broadcastInDim S1x128 ![1] bcast_S128_S1x128_1 b))

/-- The maximum with zero, entry by entry. -/
def positivePart (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The second layer's aggregation, over 64 features. -/
def aggregate64 (h : (⟨S50000x64, .f32⟩ : BufTy).Contents (Elt F)) (src tgt : (⟨S850000, .i32⟩ : BufTy).Contents (Elt F)) (wgt : (⟨S850000, .f32⟩ : BufTy).Contents (Elt F)) (b : (⟨S64, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 tgt) (mulf (Host.gather gather_S50000x64_S850000x1_S850000x64_1_0_n_n_0_1_164 h (asRowIndices src)) (broadcastInDim S850000x64 ![0, 1] bcast_S850000x1_S850000x64_0_1 (broadcastInDim S850000x1 ![0] bcast_S850000_S850000x1_0 wgt)))) (broadcastInDim S50000x64 ![0, 1] bcast_S1x64_S50000x64_0_1 (broadcastInDim S1x64 ![1] bcast_S64_S1x64_1 b))

/-- The hidden features: the first layer applied to the product of the node features and the first weight. -/
def hidden (x : (⟨S50000x256, .f32⟩ : BufTy).Contents (Elt F)) (e : (⟨S2x800000, .i32⟩ : BufTy).Contents (Elt F)) (w1 : (⟨S256x128, .f32⟩ : BufTy).Contents (Elt F)) (b1 : (⟨S128, .f32⟩ : BufTy).Contents (Elt F)) : (⟨S50000x128, .f32⟩ : BufTy).Contents (Elt F) :=
  positivePart (aggregate128 (Host.dotGeneral dot_S50000x256_S256x128_S50000x128_1_0_0_1_n_n none x w1) (sources e) (targets e) (edgeWeight (sources e) (targets e)) b1)

/-- The network's output: the second layer applied to the product of the hidden features and the second weight. -/
def output (x : (⟨S50000x256, .f32⟩ : BufTy).Contents (Elt F)) (e : (⟨S2x800000, .i32⟩ : BufTy).Contents (Elt F)) (w1 : (⟨S256x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F)) : (⟨S50000x64, .f32⟩ : BufTy).Contents (Elt F) :=
  aggregate64 (Host.dotGeneral dot_S50000x128_S128x64_S50000x64_1_0_0_1_n_n none (hidden x e w1 b1) w2) (sources e) (targets e) (edgeWeight (sources e) (targets e)) b2

/-- The reference's result term is the network's output of the six argument arrays. -/
theorem reference_result (m : (ℓ : Loc nD τ sig) → Buf (Elt F) ℓ) (c : Dev nD) :
    Cert.ReferenceIdeal.ValueP.res_main_v64 m c
      = output (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v64
  rfl

end Cert.ReferenceIdeal.Layers

end
-- ==== Proof.RowsOfProduct.lean ====
/-
  The two kernels of this program are matrix products computed 2000 rows at a time. A point of the grid loads 2000
  consecutive rows of the left factor and the whole right factor, rounds both to bf16 (on the extended reals a change of
  float format is the identity) and stores their product accumulated into zeros. An entry of a matrix product is a sum
  over the contracted coordinate that reads ONE row of the left factor and ONE column of the right factor; so an entry of
  the stored block is the entry of the product of the WHOLE matrices in the row the block's row came from. Adding the
  products onto zero is the only arithmetic used, and `0 + x = x` holds at the infinities too: no finiteness is needed.
-/
import proofs.«161455_j21122649162479_1_alg».proof.Proof.Gen.KernelIdeal.Skeleton
import proofs.«161455_j21122649162479_1_alg».proof.Proof.Gen.ReferenceIdeal
import Idealize.ShloMosaic.Lib.StackMember

noncomputable section

namespace Cert.RowBlocks

open Idealize.ShloMosaic Idealize.ShloMosaic.ValueIdx Idealize.ShloMosaic.StackMember
open Cert.KernelIdeal Cert.KernelIdeal.Gen

/-! ## The four dimension records are those of plain products -/

/-- First kernel: a 2000×256 block by the 256×128 weight. -/
theorem blockDims0 : dot_S2000x256_S256x128_S2000x128_1_0_0_1_n_n = DotDims.plain 2000 256 128 := rfl
/-- Second kernel: a 2000×128 block by the 128×64 weight. -/
theorem blockDims1 : dot_S2000x128_S128x64_S2000x64_1_0_0_1_n_n = DotDims.plain 2000 128 64 := rfl
/-- The reference's first product: all 50000 rows at once. -/
theorem wholeDims0 : Cert.ReferenceIdeal.dot_S50000x256_S256x128_S50000x128_1_0_0_1_n_n = DotDims.plain 50000 256 128 := rfl
/-- The reference's second product. -/
theorem wholeDims1 : Cert.ReferenceIdeal.dot_S50000x128_S128x64_S50000x64_1_0_0_1_n_n = DotDims.plain 50000 128 64 := rfl

/-! ## An entry of a stored block -/

/-- Entry (p, q) of the first kernel's stored block is the sum over the 256 contracted coordinates of row p of the
    loaded rows against column q of the loaded weight. -/
theorem stored0_apply (x : Vec Ideal S2000x256 .f32) (w : Vec Ideal S256x128 .f32) (p : Fin 2000) (q : Fin 128) :
    k0_pay1 (F := Ideal) x w (ix2 p q) = ∑ c : Fin 256, x (ix2 p c) * w (ix2 c q) := by
  unfold k0_pay1
  refine (congrFun (matmul_zero_eq_dotGeneral dot_S2000x256_S256x128_S2000x128_1_0_0_1_n_n none
    (truncf .bf16 x bitsLt_bf16_f32) (truncf .bf16 w bitsLt_bf16_f32)) (ix2 p q)).trans ?_
  rw [blockDims0]
  exact dotGeneral_plain_apply none _ _ p q

/-- Entry (p, q) of the second kernel's stored block likewise, over 128 contracted coordinates (the cast of the loaded
    rows to their own shape changes nothing). -/
theorem stored1_apply (x : Vec Ideal S2000x128 .f32) (w : Vec Ideal S128x64 .f32) (p : Fin 2000) (q : Fin 64) :
    k1_pay1 (F := Ideal) x w (ix2 p q) = ∑ c : Fin 128, x (ix2 p c) * w (ix2 c q) := by
  unfold k1_pay1
  rw [shapeCast_self]
  refine (congrFun (matmul_zero_eq_dotGeneral dot_S2000x128_S128x64_S2000x64_1_0_0_1_n_n none
    (truncf .bf16 x bitsLt_bf16_f32) (truncf .bf16 w bitsLt_bf16_f32)) (ix2 p q)).trans ?_
  rw [blockDims1]
  exact dotGeneral_plain_apply none _ _ p q

/-! ## The stored entry is the whole product's entry in the row it came from -/

/-- If row p of the loaded rows is row r of `A` and column q of the loaded weight is column q of `B`, entry (p, q) of the
    first kernel's stored block is entry (r, q) of the product of `A` and `B`. -/
theorem stored0_eq_product (x : Vec Ideal S2000x256 .f32) (w : Vec Ideal S256x128 .f32)
    (A : FVec Ideal S50000x256 .f32) (B : FVec Ideal S256x128 .f32) (p : Fin 2000) (q : Fin 128) (r : Fin 50000)
    (hx : ∀ c : Fin 256, x (ix2 p c) = A (ix2 r c)) (hw : ∀ c : Fin 256, w (ix2 c q) = B (ix2 c q)) :
    k0_pay1 (F := Ideal) x w (ix2 p q)
      = Host.dotGeneral Cert.ReferenceIdeal.dot_S50000x256_S256x128_S50000x128_1_0_0_1_n_n none A B (ix2 r q) := by
  rw [stored0_apply, wholeDims0, dotGeneral_plain_apply]
  exact Finset.sum_congr rfl fun c _ => by rw [hx c, hw c]

/-- The same for the second kernel: entry (p, q) of its stored block is entry (r, q) of the product of `A` and `B`. -/
theorem stored1_eq_product (x : Vec Ideal S2000x128 .f32) (w : Vec Ideal S128x64 .f32)
    (A : FVec Ideal S50000x128 .f32) (B : FVec Ideal S128x64 .f32) (p : Fin 2000) (q : Fin 64) (r : Fin 50000)
    (hx : ∀ c : Fin 128, x (ix2 p c) = A (ix2 r c)) (hw : ∀ c : Fin 128, w (ix2 c q) = B (ix2 c q)) :
    k1_pay1 (F := Ideal) x w (ix2 p q)
      = Host.dotGeneral Cert.ReferenceIdeal.dot_S50000x128_S128x64_S50000x64_1_0_0_1_n_n none A B (ix2 r q) := by
  rw [stored1_apply, wholeDims1, dotGeneral_plain_apply]
  exact Finset.sum_congr rfl fun c _ => by rw [hx c, hw c]

/-! ## The same at any index of the block -/

/-- Entry `j` of the first kernel's stored block is entry `i` of the product of `A` and `B` whenever `i` is in `j`'s
    column, the loaded row `j 0` is row `i 0` of `A`, and the loaded weight's column `j 1` is `B`'s. -/
theorem stored0_at (x : Vec Ideal S2000x256 .f32) (w : Vec Ideal S256x128 .f32)
    (A : FVec Ideal S50000x256 .f32) (B : FVec Ideal S256x128 .f32) (j : S2000x128.Idx) (i : S50000x128.Idx)
    (hcol : (i 1).val = (j 1).val)
    (hx : ∀ c : Fin 256, x (ix2 (j 0) c) = A (ix2 (i 0) c)) (hw : ∀ c : Fin 256, w (ix2 c (j 1)) = B (ix2 c (j 1))) :
    k0_pay1 (F := Ideal) x w j
      = Host.dotGeneral Cert.ReferenceIdeal.dot_S50000x256_S256x128_S50000x128_1_0_0_1_n_n none A B i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hcol
  exact stored0_eq_product x w A B p s r hx hw

/-- The same for the second kernel. -/
theorem stored1_at (x : Vec Ideal S2000x128 .f32) (w : Vec Ideal S128x64 .f32)
    (A : FVec Ideal S50000x128 .f32) (B : FVec Ideal S128x64 .f32) (j : S2000x64.Idx) (i : S50000x64.Idx)
    (hcol : (i 1).val = (j 1).val)
    (hx : ∀ c : Fin 128, x (ix2 (j 0) c) = A (ix2 (i 0) c)) (hw : ∀ c : Fin 128, w (ix2 c (j 1)) = B (ix2 c (j 1))) :
    k1_pay1 (F := Ideal) x w j
      = Host.dotGeneral Cert.ReferenceIdeal.dot_S50000x128_S128x64_S50000x64_1_0_0_1_n_n none A B i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hcol
  exact stored1_eq_product x w A B p s r hx hw

end Cert.RowBlocks

end
-- ==== Proof.FirstProduct.lean ====
/-
  The first matrix product's region. The grid has 25 points; point `t` reads rows 2000·t … 2000·t + 1999 of the left
  matrix (all 256 columns) and the whole 256×128 weight, and writes back rows 2000·t … 2000·t + 1999 of the result. By
  the entry lemma every written entry is the entry of the product of the two WHOLE arrays, as the region finds them, at
  the same place; and 25 blocks of 2000 rows are all 50000 rows. So after the region the result array is that product.
-/
import proofs.«161455_j21122649162479_1_alg».proof.Proof.Gen.KernelIdeal.Frame
import proofs.«161455_j21122649162479_1_alg».proof.Proof.RowsOfProduct
import Idealize.ShloMosaic.Lib.Pipeline.Value

set_option maxRecDepth 16384

noncomputable section

namespace Cert.KernelIdeal.FirstProduct

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The three index maps over the grid: the left matrix's and the result's block index is (t, 0), the weight's (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the left matrix and the weight as the region finds them. -/
abbrev product (c : Dev nD) : FVec Ideal S50000x128 .f32 :=
  Host.dotGeneral (φ₁ := .f32) (φ₂ := .f32) Cert.ReferenceIdeal.dot_S50000x256_S256x128_S50000x128_1_0_0_1_n_n none
    (V c main_arg0) (V c main_arg2)

/-- Row p of the rows loaded at point t is row 2000·t + p of the left matrix. -/
theorem loadedRow (c : Dev nD) (t : Fin cfg0.N) (p : Fin 2000) (k : Fin 256) (r : Fin 50000)
    (hr : r.val = 2000 * t.val + p.val) :
    (iblk0 V c 0 t : Vec Ideal S2000x256 .f32) (ix2 p k) = (V c main_arg0 : FVec Ideal S50000x256 .f32) (ix2 r k) := by
  unfold iblk0
  rw [View.read_apply]
  show V c main_arg0 _ = V c main_arg0 _
  congr 1
  funext a
  apply Fin.ext
  match a with
  | ⟨0, _⟩ => show win0_0.index t 0 * 2000 + 1 * p.val = r.val; rw [(blockIndex t).1, hr]; omega
  | ⟨1, _⟩ => show win0_0.index t 1 * 256 + 1 * k.val = k.val; rw [(blockIndex t).2.1]; omega

/-- The weight loaded at any point is the whole weight. -/
theorem loadedWeight (c : Dev nD) (t : Fin cfg0.N) (k : Fin 256) (q : Fin 128) :
    (iblk0 V c 1 t : Vec Ideal S256x128 .f32) (ix2 k q) = (V c main_arg2 : FVec Ideal S256x128 .f32) (ix2 k q) := by
  unfold iblk0
  rw [View.read_apply]
  show V c main_arg2 _ = V c main_arg2 _
  congr 1
  funext a
  apply Fin.ext
  match a with
  | ⟨0, _⟩ => show win0_1.index t 0 * 256 + 1 * k.val = k.val; rw [(blockIndex t).2.2.1]; omega
  | ⟨1, _⟩ => show win0_1.index t 1 * 128 + 1 * q.val = q.val; rw [(blockIndex t).2.2.2.1]; omega

/-- What point t writes back is rows 2000·t … 2000·t + 1999 of the product. -/
theorem writtenBack (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  funext j
  show k0_pay1 (F := Ideal) (iblk0 V c 0 t) (iblk0 V c 1 t) j = product V c (((cfg0.win 2).blk t).view.emb j)
  have ht : t.val < 25 := by have h := t.isLt; have e : cfg0.N = 25 := N_0; omega
  have hrow : ((((cfg0.win 2).blk t).view.emb j) 0).val = 2000 * t.val + (j 0).val := by
    show win0_2.index t 0 * 2000 + 1 * (j 0).val = _
    rw [(blockIndex t).2.2.2.2.1]; omega
  have hcol : ((((cfg0.win 2).blk t).view.emb j) 1).val = (j 1).val := by
    show win0_2.index t 1 * 128 + 1 * (j 1).val = _
    rw [(blockIndex t).2.2.2.2.2]; omega
  exact Cert.RowBlocks.stored0_at _ _ _ _ j _ hcol (fun k => loadedRow V c t (j 0) k _ hrow)
    (fun k => loadedWeight V c t k (j 1))

/-- An index of the result array is in point t's block iff each coordinate is in the block's range on its axis. -/
theorem inBlock (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every index of the result array is in the block of the point its row belongs to. -/
theorem everyRowWritten (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [inBlock]
  intro a
  obtain ⟨-, -, -, -, e0, e1⟩ := blockIndex ⟨(i 0).val / 2000, by rw [hN]; omega⟩
  match a with
  | ⟨0, _⟩ =>
    show win0_2.index _ (0 : Fin 2) * 2000 ≤ (i 0).val ∧ (i 0).val < win0_2.index _ (0 : Fin 2) * 2000 + 2000
    rw [e0]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e1]; omega

/-- After the region the result array holds the product of the left matrix and the weight as the region found them. -/
theorem result (c : Dev nD) : (dat0 V c).arrAt 2 cfg0.N = product V c :=
  (dat0 V c).arrAt_eq_of_cover 2 (product V c) (fun t _ => writtenBack V c t) everyRowWritten

end Cert.KernelIdeal.FirstProduct

end
-- ==== Proof.SecondProduct.lean ====
/-
  The second matrix product's region. Again 25 points; point `t` reads rows 2000·t … 2000·t + 1999 of the hidden
  features (all 128 columns) and the whole 128×64 weight, and writes back the same rows of the result. Every written
  entry is the entry of the product of the two whole arrays, as the region finds them, at the same place, and the 25
  blocks are all 50000 rows: after the region the result array is that product.
-/
import proofs.«161455_j21122649162479_1_alg».proof.Proof.Gen.KernelIdeal.Frame
import proofs.«161455_j21122649162479_1_alg».proof.Proof.RowsOfProduct
import Idealize.ShloMosaic.Lib.Pipeline.Value

set_option maxRecDepth 16384

noncomputable section

namespace Cert.KernelIdeal.SecondProduct

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The three index maps over the grid: the hidden features' and the result's block index is (t, 0), the weight's (0, 0). -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The product of the hidden features and the second weight as the region finds them. -/
abbrev product (c : Dev nD) : FVec Ideal S50000x64 .f32 :=
  Host.dotGeneral (φ₁ := .f32) (φ₂ := .f32) Cert.ReferenceIdeal.dot_S50000x128_S128x64_S50000x64_1_0_0_1_n_n none
    (V c main_v47) (V c main_arg4)

/-- Row p of the rows loaded at point t is row 2000·t + p of the hidden features. -/
theorem loadedRow (c : Dev nD) (t : Fin cfg1.N) (p : Fin 2000) (k : Fin 128) (r : Fin 50000)
    (hr : r.val = 2000 * t.val + p.val) :
    (iblk1 V c 0 t : Vec Ideal S2000x128 .f32) (ix2 p k) = (V c main_v47 : FVec Ideal S50000x128 .f32) (ix2 r k) := by
  unfold iblk1
  rw [View.read_apply]
  show V c main_v47 _ = V c main_v47 _
  congr 1
  funext a
  apply Fin.ext
  match a with
  | ⟨0, _⟩ => show win1_0.index t 0 * 2000 + 1 * p.val = r.val; rw [(blockIndex t).1, hr]; omega
  | ⟨1, _⟩ => show win1_0.index t 1 * 128 + 1 * k.val = k.val; rw [(blockIndex t).2.1]; omega

/-- The weight loaded at any point is the whole weight. -/
theorem loadedWeight (c : Dev nD) (t : Fin cfg1.N) (k : Fin 128) (q : Fin 64) :
    (iblk1 V c 1 t : Vec Ideal S128x64 .f32) (ix2 k q) = (V c main_arg4 : FVec Ideal S128x64 .f32) (ix2 k q) := by
  unfold iblk1
  rw [View.read_apply]
  show V c main_arg4 _ = V c main_arg4 _
  congr 1
  funext a
  apply Fin.ext
  match a with
  | ⟨0, _⟩ => show win1_1.index t 0 * 128 + 1 * k.val = k.val; rw [(blockIndex t).2.2.1]; omega
  | ⟨1, _⟩ => show win1_1.index t 1 * 64 + 1 * q.val = q.val; rw [(blockIndex t).2.2.2.1]; omega

/-- What point t writes back is rows 2000·t … 2000·t + 1999 of the product. -/
theorem writtenBack (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S128x64) zeroOffsets]
  funext j
  show k1_pay1 (F := Ideal) (iblk1 V c 0 t) (iblk1 V c 1 t) j = product V c (((cfg1.win 2).blk t).view.emb j)
  have ht : t.val < 25 := by have h := t.isLt; have e : cfg1.N = 25 := N_1; omega
  have hrow : ((((cfg1.win 2).blk t).view.emb j) 0).val = 2000 * t.val + (j 0).val := by
    show win1_2.index t 0 * 2000 + 1 * (j 0).val = _
    rw [(blockIndex t).2.2.2.2.1]; omega
  have hcol : ((((cfg1.win 2).blk t).view.emb j) 1).val = (j 1).val := by
    show win1_2.index t 1 * 64 + 1 * (j 1).val = _
    rw [(blockIndex t).2.2.2.2.2]; omega
  exact Cert.RowBlocks.stored1_at _ _ _ _ j _ hcol (fun k => loadedRow V c t (j 0) k _ hrow)
    (fun k => loadedWeight V c t k (j 1))

/-- An index of the result array is in point t's block iff each coordinate is in the block's range on its axis. -/
theorem inBlock (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v48).slice (win1_2.rect t)).set ↔ _
  rw [View.set_slice_whole, Rect.mem_set_unit]
  exact Iff.rfl

/-- Every index of the result array is in the block of the point its row belongs to. -/
theorem everyRowWritten (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_2 _, ?_⟩
  rw [inBlock]
  intro a
  obtain ⟨-, -, -, -, e0, e1⟩ := blockIndex ⟨(i 0).val / 2000, by rw [hN]; omega⟩
  match a with
  | ⟨0, _⟩ =>
    show win1_2.index _ (0 : Fin 2) * 2000 ≤ (i 0).val ∧ (i 0).val < win1_2.index _ (0 : Fin 2) * 2000 + 2000
    rw [e0]; show (i 0).val / 2000 * 2000 ≤ (i 0).val ∧ (i 0).val < (i 0).val / 2000 * 2000 + 2000; omega
  | ⟨1, _⟩ =>
    show win1_2.index _ (1 : Fin 2) * 64 ≤ (i 1).val ∧ (i 1).val < win1_2.index _ (1 : Fin 2) * 64 + 64
    rw [e1]; omega

/-- After the region the result array holds the product of the hidden features and the second weight as the region
    found them. -/
theorem result (c : Dev nD) : (dat1 V c).arrAt 2 cfg1.N = product V c :=
  (dat1 V c).arrAt_eq_of_cover 2 (product V c) (fun t _ => writtenBack V c t) everyRowWritten

end Cert.KernelIdeal.SecondProduct

end
-- ==== Proof.Boundaries.lean ====
/-
  The kernel's program, boundary by boundary. Its @main is three host stretches, the first product's region, two host
  stretches, the second product's region and a last host stretch; the generated frame names the buffer contents at each
  boundary as a fold from the launch memory. Read here, with the shared functions of the graph convolution: before the
  first region the edge sources, the edge targets and the edge weights are those functions of the edge list and the
  arguments are as launched; a region changes its result array only; between the regions the first layer is applied to
  whatever the first region left; after the second region the second layer is applied to whatever it left. If the two
  regions leave the products of their whole input arrays, the result is the network's output of the six arguments.
-/
import proofs.«161455_j21122649162479_1_alg».proof.Proof.Gen.KernelIdeal.Frame
import proofs.«161455_j21122649162479_1_alg».proof.Proof.Layers
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen
open Cert.ReferenceIdeal.Layers (sources targets edgeWeight aggregate128 positivePart aggregate64 hidden output)

variable {F : FTy → Type} [FloatOps F]
variable (m : (ℓ : Loc nD τ sig) → Buf (Elt F) ℓ) (ρ : Dev nD → PrngReg)

/-! ## Before the first region -/

theorem sources_before (c : Dev nD) : W3 m ρ c (Proc.devRef .tc main_v3) = sources (m ((c.tc : Thread nD τ).loc main_arg1)) := by
  dsimp only [W3, W2, W1, hostOps0_2, hostOps0_1, hostOps0]
  after_results <;> rfl

theorem targets_before (c : Dev nD) : W3 m ρ c (Proc.devRef .tc main_v6) = targets (m ((c.tc : Thread nD τ).loc main_arg1)) := by
  dsimp only [W3, W2, W1, hostOps0_2, hostOps0_1, hostOps0]
  after_results <;> rfl

set_option maxHeartbeats 4000000 in
theorem weights_before (c : Dev nD) :
    W3 m ρ c (Proc.devRef .tc main_v29) = edgeWeight (sources (m ((c.tc : Thread nD τ).loc main_arg1))) (targets (m ((c.tc : Thread nD τ).loc main_arg1))) := by
  dsimp only [W3, W2, W1, hostOps0_2, hostOps0_1, hostOps0]
  after_results_simp <;> rfl

theorem features_before (c : Dev nD) : W3 m ρ c (Proc.devRef .tc main_arg0) = m ((c.tc : Thread nD τ).loc main_arg0) := by
  dsimp only [W3, W2, W1, hostOps0_2, hostOps0_1, hostOps0]
  after_results_simp <;> rfl

theorem weight1_before (c : Dev nD) : W3 m ρ c (Proc.devRef .tc main_arg2) = m ((c.tc : Thread nD τ).loc main_arg2) := by
  dsimp only [W3, W2, W1, hostOps0_2, hostOps0_1, hostOps0]
  after_results_simp <;> rfl

theorem bias1_before (c : Dev nD) : W3 m ρ c (Proc.devRef .tc main_arg3) = m ((c.tc : Thread nD τ).loc main_arg3) := by
  dsimp only [W3, W2, W1, hostOps0_2, hostOps0_1, hostOps0]
  after_results_simp <;> rfl

theorem weight2_before (c : Dev nD) : W3 m ρ c (Proc.devRef .tc main_arg4) = m ((c.tc : Thread nD τ).loc main_arg4) := by
  dsimp only [W3, W2, W1, hostOps0_2, hostOps0_1, hostOps0]
  after_results_simp <;> rfl

theorem bias2_before (c : Dev nD) : W3 m ρ c (Proc.devRef .tc main_arg5) = m ((c.tc : Thread nD τ).loc main_arg5) := by
  dsimp only [W3, W2, W1, hostOps0_2, hostOps0_1, hostOps0]
  after_results_simp <;> rfl

/-! ## Across the first region: only its result array changes -/

theorem product1_after (c : Dev nD) :
    W4 m ρ c (Proc.devRef .tc main_v30) = (dat0 (V3 m ρ) c).arrAt 2 cfg0.N := W4_arr m ρ c 2

theorem sources_mid (c : Dev nD) : W4 m ρ c (Proc.devRef .tc main_v3) = sources (m ((c.tc : Thread nD τ).loc main_arg1)) :=
  (W4_of_ne m ρ c main_v3 (by decide)).trans (sources_before m ρ c)
theorem targets_mid (c : Dev nD) : W4 m ρ c (Proc.devRef .tc main_v6) = targets (m ((c.tc : Thread nD τ).loc main_arg1)) :=
  (W4_of_ne m ρ c main_v6 (by decide)).trans (targets_before m ρ c)
theorem weights_mid (c : Dev nD) :
    W4 m ρ c (Proc.devRef .tc main_v29) = edgeWeight (sources (m ((c.tc : Thread nD τ).loc main_arg1))) (targets (m ((c.tc : Thread nD τ).loc main_arg1))) :=
  (W4_of_ne m ρ c main_v29 (by decide)).trans (weights_before m ρ c)
theorem bias1_mid (c : Dev nD) : W4 m ρ c (Proc.devRef .tc main_arg3) = m ((c.tc : Thread nD τ).loc main_arg3) :=
  (W4_of_ne m ρ c main_arg3 (by decide)).trans (bias1_before m ρ c)
theorem weight2_mid (c : Dev nD) : W4 m ρ c (Proc.devRef .tc main_arg4) = m ((c.tc : Thread nD τ).loc main_arg4) :=
  (W4_of_ne m ρ c main_arg4 (by decide)).trans (weight2_before m ρ c)
theorem bias2_mid (c : Dev nD) : W4 m ρ c (Proc.devRef .tc main_arg5) = m ((c.tc : Thread nD τ).loc main_arg5) :=
  (W4_of_ne m ρ c main_arg5 (by decide)).trans (bias2_before m ρ c)

/-! ## Between the regions: the first layer -/

set_option maxHeartbeats 4000000 in
theorem hidden_between (c : Dev nD) :
    W6 m ρ c (Proc.devRef .tc main_v47)
      = positivePart (aggregate128 (W4 m ρ c (Proc.devRef .tc main_v30)) (W4 m ρ c (Proc.devRef .tc main_v3))
          (W4 m ρ c (Proc.devRef .tc main_v6)) (W4 m ρ c (Proc.devRef .tc main_v29)) (W4 m ρ c (Proc.devRef .tc main_arg3))) := by
  dsimp only [W6, W5, hostOps1_1, hostOps1]
  after_results_simp <;> rfl

theorem sources_between (c : Dev nD) : W6 m ρ c (Proc.devRef .tc main_v3) = W4 m ρ c (Proc.devRef .tc main_v3) := by
  dsimp only [W6, W5, hostOps1_1, hostOps1]
  after_results_simp <;> rfl
theorem targets_between (c : Dev nD) : W6 m ρ c (Proc.devRef .tc main_v6) = W4 m ρ c (Proc.devRef .tc main_v6) := by
  dsimp only [W6, W5, hostOps1_1, hostOps1]
  after_results_simp <;> rfl
theorem weights_between (c : Dev nD) : W6 m ρ c (Proc.devRef .tc main_v29) = W4 m ρ c (Proc.devRef .tc main_v29) := by
  dsimp only [W6, W5, hostOps1_1, hostOps1]
  after_results_simp <;> rfl
theorem weight2_between (c : Dev nD) : W6 m ρ c (Proc.devRef .tc main_arg4) = W4 m ρ c (Proc.devRef .tc main_arg4) := by
  dsimp only [W6, W5, hostOps1_1, hostOps1]
  after_results_simp <;> rfl
theorem bias2_between (c : Dev nD) : W6 m ρ c (Proc.devRef .tc main_arg5) = W4 m ρ c (Proc.devRef .tc main_arg5) := by
  dsimp only [W6, W5, hostOps1_1, hostOps1]
  after_results_simp <;> rfl

/-! ## Across the second region, and the last stretch: the second layer -/

theorem product2_after (c : Dev nD) :
    W7 m ρ c (Proc.devRef .tc main_v48) = (dat1 (V6 m ρ) c).arrAt 2 cfg1.N := W7_arr m ρ c 2

set_option maxHeartbeats 4000000 in
theorem output_at_end (c : Dev nD) :
    W8 m ρ c (Proc.devRef .tc main_v64)
      = aggregate64 (W7 m ρ c (Proc.devRef .tc main_v48)) (W7 m ρ c (Proc.devRef .tc main_v3))
          (W7 m ρ c (Proc.devRef .tc main_v6)) (W7 m ρ c (Proc.devRef .tc main_v29)) (W7 m ρ c (Proc.devRef .tc main_arg5)) := by
  dsimp only [W8, hostOps2]
  after_results_simp <;> rfl

/-! ## The result, given what the two regions leave -/

/-- If each region leaves in its result array the product of its two input arrays as it found them, the program's result
    is the network's output of the six argument arrays. -/
theorem result_of_products (c : Dev nD)
    (h0 : (dat0 (V3 m ρ) c).arrAt 2 cfg0.N
      = Host.dotGeneral (φ₁ := .f32) (φ₂ := .f32) Cert.ReferenceIdeal.dot_S50000x256_S256x128_S50000x128_1_0_0_1_n_n none
          (W3 m ρ c (Proc.devRef .tc main_arg0)) (W3 m ρ c (Proc.devRef .tc main_arg2)))
    (h1 : (dat1 (V6 m ρ) c).arrAt 2 cfg1.N
      = Host.dotGeneral (φ₁ := .f32) (φ₂ := .f32) Cert.ReferenceIdeal.dot_S50000x128_S128x64_S50000x64_1_0_0_1_n_n none
          (W6 m ρ c (Proc.devRef .tc main_v47)) (W6 m ρ c (Proc.devRef .tc main_arg4))) :
    W8 m ρ c (Proc.devRef .tc main_v64)
      = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [output_at_end, product2_after, h1, hidden_between, product1_after, h0, features_before, weight1_before,
    sources_mid, targets_mid, weights_mid, bias1_mid, weight2_between, weight2_mid,
    W7_of_ne m ρ c main_v3 (by decide), W7_of_ne m ρ c main_v6 (by decide), W7_of_ne m ρ c main_v29 (by decide),
    W7_of_ne m ρ c main_arg5 (by decide),
    sources_between, targets_between, weights_between, bias2_between, sources_mid, targets_mid, weights_mid, bias2_mid]
  rfl

end Cert.KernelIdeal.Boundaries

end
-- ==== Proof.lean ====
/-
  A two-layer graph convolution whose two dense products run as Pallas kernels, 2000 rows of the left factor per grid
  point, against the jnp reference that takes each product whole. Everything around the products — self loops, degrees,
  edge weights, gather, scale, scatter-add, bias, the maximum with zero — is the same host operations in both programs.

  At the ideal values a kernel's stored block is the product of the rows it loaded with the weight (rounding to bf16 is
  the identity, the accumulator is zero), so each entry is the whole product's entry in the row it came from; 25 blocks of
  2000 rows are all 50000 rows, so each region leaves the whole product in its result array. The kernel program's result
  is then the shared host functions applied to those two products: the term the reference's run ends at. No law of
  arithmetic beyond `0 + x = x` is used, so the precondition is never opened.

  The frames of the two kernel programs are the generated ones; the reference's is its run with the result dropped; the
  idealization rewrote nothing, so `preserves` has nothing to state.
-/
import proofs.«161455_j21122649162479_1_alg».proof.Defs
import proofs.«161455_j21122649162479_1_alg».proof.Proof.Gen.Kernel
import proofs.«161455_j21122649162479_1_alg».proof.Proof.Gen.Kernel.Skeleton
import proofs.«161455_j21122649162479_1_alg».proof.Proof.Gen.Kernel.Launch
import proofs.«161455_j21122649162479_1_alg».proof.Proof.Gen.Kernel.Points
import proofs.«161455_j21122649162479_1_alg».proof.Proof.Gen.Kernel.Frame
import proofs.«161455_j21122649162479_1_alg».proof.Proof.Gen.KernelIdeal
import proofs.«161455_j21122649162479_1_alg».proof.Proof.Gen.KernelIdeal.Skeleton
import proofs.«161455_j21122649162479_1_alg».proof.Proof.Gen.KernelIdeal.Launch
import proofs.«161455_j21122649162479_1_alg».proof.Proof.Gen.KernelIdeal.Points
import proofs.«161455_j21122649162479_1_alg».proof.Proof.Gen.KernelIdeal.Frame
import proofs.«161455_j21122649162479_1_alg».proof.Proof.Gen.ReferenceIdeal
import proofs.«161455_j21122649162479_1_alg».proof.Proof.Gen.Pre_finite_inputs
import proofs.«161455_j21122649162479_1_alg».proof.Proof.RefRun
import proofs.«161455_j21122649162479_1_alg».proof.Proof.Layers
import proofs.«161455_j21122649162479_1_alg».proof.Proof.KernelRun
import proofs.«161455_j21122649162479_1_alg».proof.Proof.FirstProduct
import proofs.«161455_j21122649162479_1_alg».proof.Proof.SecondProduct
import proofs.«161455_j21122649162479_1_alg».proof.Proof.Boundaries
import Idealize.ShloMosaic.Adequacy
import Idealize.ShloMosaic.Init

noncomputable section

namespace Cert.Proof

open Idealize.ShloMosaic Idealize.ShloMosaic.TcCoe Idealize.SL.Sem

/-- The kernel program's result at the ideal values: each region leaves its whole product, so the fold through @main
    ends at the network's output of the six argument arrays. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W8 m ρ c (Proc.devRef .tc Cert.KernelIdeal.main_v64)
      = Cert.ReferenceIdeal.Layers.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  Cert.KernelIdeal.Boundaries.result_of_products m ρ c
    (Cert.KernelIdeal.FirstProduct.result (Cert.KernelIdeal.Gen.V3 m ρ) c) (Cert.KernelIdeal.SecondProduct.result (Cert.KernelIdeal.Gen.V6 m ρ) c)

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- Both programs end, from memories that agree on the arguments, at the network's output of those arguments. -/
theorem algebraic : Cert.algebraic_KernelIdeal_ReferenceIdeal := by
  intro m ρ m' ρ' _ hagree
  refine ⟨fun c => Cert.ReferenceIdeal.Layers.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.Layers.reference_result, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
